-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x16 .f32) (main_arg4 : FVec F S16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x4096 : Shape := ⟨2, ![8192, 4096]⟩
abbrev S1x4096 : Shape := ⟨2, ![1, 4096]⟩
abbrev S1024x1024 : Shape := ⟨2, ![1024, 1024]⟩
abbrev S1024x16 : Shape := ⟨2, ![1024, 16]⟩
abbrev S1x1024 : Shape := ⟨2, ![1, 1024]⟩
abbrev S16x1024 : Shape := ⟨2, ![16, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x16, .f32⟩
  | .local _ .vmem, ⟨5, _⟩ => ⟨S1024x16, .f32⟩
  | .local _ .vmem, ⟨6, _⟩ => ⟨S1x1024, .f32⟩
  | .local _ .vmem, ⟨7, _⟩ => ⟨S1x1024, .f32⟩
  | .local _ .vmem, ⟨8, _⟩ => ⟨S16x1024, .f32⟩
  | .local _ .vmem, ⟨9, _⟩ => ⟨S16x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .f32 = 32 ∨ (Rect.block (s := S4096x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x4096.size a
  hwx0_4 : ∀ i : grid0.Coords, EltTy.bits .f32 = 32 ∨ (Rect.block (s := S16x4096) S16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S4x2048x16 : Shape := ⟨3, ![4, 2048, 16]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S4096x16_S4x2048x16_2_0_01_1_n_n_wf : DotDims.WF S4x2048x4096 S4096x16 S4x2048x16 [2] [0] [0, 1] [1] [] []
  dot_S4x2048x16_S16x4096_S4x2048x4096_2_0_01_1_n_n_wf : DotDims.WF S4x2048x16 S16x4096 S4x2048x4096 [2] [0] [0, 1] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S4096x16_S4x2048x16_2_0_01_1_n_n : DotDims S4x2048x4096 S4096x16 S4x2048x16 where
  lhsContracting := [2]
  rhsContracting := [0]
  lhsNonContracting := [0, 1]
  rhsNonContracting := [1]
  lhsBatch := []
  rhsBatch := []
  wf := dot_S4x2048x4096_S4096x16_S4x2048x16_2_0_01_1_n_n_wf
def dot_S4x2048x16_S16x4096_S4x2048x4096_2_0_01_1_n_n : DotDims S4x2048x16 S16x4096 S4x2048x4096 where
  lhsContracting := [2]
  rhsContracting := [0]
  lhsNonContracting := [0, 1]
  rhsNonContracting := [1]
  lhsBatch := []
  rhsBatch := []
  wf := dot_S4x2048x16_S16x4096_S4x2048x4096_2_0_01_1_n_n_wf

class Facts : Prop extends Facts₀ where

variable [Facts]
-- ==== Proof.Pieces.lean ====
/-
  What the kernel's body leaves behind, case by case, and what one group of four grid points computes.
  The grid is 8 × 4 × 4 and walks the shared (contracted) axis fastest. The body keeps two accumulators across
  the four steps of a group: the [1024, 1024] block of x·Wᵀ and the [1024, 16] block of x·A. They are zeroed at the
  first step, each step adds its block products, and the last step forms the output block from them.
-/
import proofs.«165287_j72980084293845_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## What each case leaves, as the body's own payloads

  The body first, at the first step over the shared axis only, stores zero into both carried accumulators; then it
  adds the step's two products onto what the accumulators hold and stores the sums back; at the last step it forms the
  output block from the two accumulators it has just stored. Each case's stores cover their buffers whole, so what a
  buffer ends holding is its last store's payload, a load after a store reading that store. -/

section CaseA
variable (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S1x1024 .f32) (harg6 : arg6.IsWhole) (arg7 : Memref sig .tc .vmem S16x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1024x1024 .f32) (x1 : Vec F S1024x1024 .f32) (x2 : Vec F S1024x16 .f32) (x3 : Vec F S1x1024 .f32) (x4 : Vec F S16x1024 .f32)

/-- First step: the large accumulator ends at the step's product added onto the zero block just stored. -/
theorem first_acc : sout0_A_0 c i arg3 harg3 arg4 harg4 arg5 harg5 arg6 harg6 arg7 harg7 arg8 harg8 arg9 harg9 arg10 harg10 hc0 hc1 x0 x1 x2 x3 x4 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz]
  simp only [View.readAt_eq_ld, harg3.read_unread, harg4.read_unread, View.ld_unit_zero (S := S1024x1024) hz,
    View.readCov_unit_zero (S := S1024x1024) _ hz]

/-- First step: the low-rank accumulator likewise. -/
theorem first_racc : sout0_A_1 c i arg3 harg3 arg4 harg4 arg5 harg5 arg6 harg6 arg7 harg7 arg8 harg8 arg9 harg9 arg10 harg10 hc0 hc1 x0 x1 x2 x3 x4 = k0_pay5 x0 x2 k0_pay2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz]
  simp only [View.readAt_eq_ld, harg3.read_unread, harg5.read_unread, View.ld_unit_zero (S := S1024x1024) hz,
    View.ld_unit_zero (S := S1024x16) hz, View.readCov_unit_zero (S := S1024x16) _ hz]
end CaseA

section CaseB
variable (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S1x1024 .f32) (harg6 : arg6.IsWhole) (arg7 : Memref sig .tc .vmem S16x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1024x1024 .f32) (x1 : Vec F S1024x1024 .f32) (x2 : Vec F S1024x16 .f32) (x3 : Vec F S1x1024 .f32) (x4 : Vec F S16x1024 .f32) (xs0 : Vec F S1024x1024 .f32) (xs1 : Vec F S1024x16 .f32)

/-- A middle step: the large accumulator ends at the step's product added onto what it held. -/
theorem mid_acc : sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg9.read_unread, View.ld_unit_zero (S := S1024x1024) hz]

/-- A middle step: the low-rank accumulator likewise. -/
theorem mid_racc : sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg5.read_unread, harg10.read_unread, View.ld_unit_zero (S := S1024x1024) hz,
    View.ld_unit_zero (S := S1024x16) hz]
end CaseB

section CaseC
variable (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S1x1024 .f32) (harg6 : arg6.IsWhole) (arg7 : Memref sig .tc .vmem S16x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x1024 .f32) (x1 : Vec F S1024x1024 .f32) (x2 : Vec F S1024x16 .f32) (x3 : Vec F S1x1024 .f32) (x4 : Vec F S16x1024 .f32) (xs0 : Vec F S1024x1024 .f32) (xs1 : Vec F S1024x16 .f32)

/-- The last step: the large accumulator as at a middle step. -/
theorem last_acc : sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg9.read_unread, View.ld_unit_zero (S := S1024x1024) hz]

/-- The last step: the low-rank accumulator as at a middle step. -/
theorem last_racc : sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg5.read_unread, harg10.read_unread, View.ld_unit_zero (S := S1024x1024) hz,
    View.ld_unit_zero (S := S1024x16) hz]

/-- The last step: the output block is formed from the two accumulators as this step has just stored them, the
    correction's right factor and the bias row. -/
theorem last_out : out0_C_5 c i arg3 harg3 arg4 harg4 arg5 harg5 arg6 harg6 arg7 harg7 arg8 harg8 arg9 harg9 arg10 harg10 hc0 hc1 x0 x1 x2 x3 x4 xs0 xs1
    = k0_pay6 (k0_pay5 x0 x2 xs1) x4 (k0_pay4 x0 x1 xs0) x3 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread,
    harg7.read_unread, harg9.read_unread, harg10.read_unread, View.ld_unit_zero (S := S1024x1024) hz,
    View.ld_unit_zero (S := S1024x16) hz, View.ld_unit_zero (S := S16x1024) hz, View.ld_unit_zero (S := S1x1024) hz,
    View.readCov_unit_zero (S := S1024x16) _ hz, View.readCov_unit_zero (S := S1024x1024) _ hz]
end CaseC

/-! ## One group of four points

  The grid walks the shared axis fastest, so the points come in groups of four that share their output block:
  point `n` with `n` a multiple of four is a first step, `n + 1` and `n + 2` are middle steps and `n + 3` is the last
  step. A first step reads nothing carried, so what the last step of a group leaves is a function of the group's own
  input blocks alone — four nested steps, no induction over the grid. -/

variable (m : (ℓ : Loc nD τ sig) → Buf (Elt F) ℓ)

/-- The left operand's block, the two right operands' blocks, the bias row's block and the correction's right
    factor's block at a point, at their literal shapes. -/
abbrev xblk (c : Dev nD) (t : Fin cfg0.N) : Vec F S1024x1024 .f32 := iblk m c 0 t
abbrev wblk (c : Dev nD) (t : Fin cfg0.N) : Vec F S1024x1024 .f32 := iblk m c 1 t
abbrev ablk (c : Dev nD) (t : Fin cfg0.N) : Vec F S1024x16 .f32 := iblk m c 2 t
abbrev bblk (c : Dev nD) (t : Fin cfg0.N) : Vec F S1x1024 .f32 := iblk m c 3 t
abbrev lblk (c : Dev nD) (t : Fin cfg0.N) : Vec F S16x1024 .f32 := iblk m c 4 t

/-- The two accumulators after a first step at point `t`. -/
def accFirst (c : Dev nD) (t : Fin cfg0.N) : Vec F S1024x1024 .f32 × Vec F S1024x16 .f32 :=
  (k0_pay4 (xblk m c t) (wblk m c t) k0_pay1, k0_pay5 (xblk m c t) (ablk m c t) k0_pay2)

/-- The two accumulators after a later step at point `t`, from what the point before left. -/
def accNext (c : Dev nD) (t : Fin cfg0.N) (s : Vec F S1024x1024 .f32 × Vec F S1024x16 .f32) :
    Vec F S1024x1024 .f32 × Vec F S1024x16 .f32 :=
  (k0_pay4 (xblk m c t) (wblk m c t) s.1, k0_pay5 (xblk m c t) (ablk m c t) s.2)

/-- The output block a last step at point `t` forms from the accumulators it has just stored. -/
def outLast (c : Dev nD) (t : Fin cfg0.N) (s : Vec F S1024x1024 .f32 × Vec F S1024x16 .f32) : Vec F S1024x1024 .f32 :=
  k0_pay6 s.2 (lblk m c t) s.1 (bblk m c t)

/-- After a first step the carried pair is `accFirst`. -/
theorem carried_first (c : Dev nD) (t : Fin cfg0.N) (h0 : t.val % 4 = 0) :
    (outsAt0 m c t.val t.isLt).2 = accFirst m c t := by
  have h1 : ¬t.val % 4 = 3 := by omega
  rw [outsAt0_A m c t h0 h1]
  dsimp only
  unfold accFirst
  rw [first_acc, first_racc]

/-- After a middle step the carried pair is `accNext` of what the point before left. -/
theorem carried_mid (c : Dev nD) (t : Fin cfg0.N) (h0 : ¬t.val % 4 = 0) (h1 : ¬t.val % 4 = 3) :
    (outsAt0 m c t.val t.isLt).2
      = accNext m c t (outsAt0 m c (t.val - 1) (Nat.lt_of_le_of_lt (Nat.sub_le _ _) t.isLt)).2 := by
  rw [outsAt0_B m c t h0 h1]
  dsimp only
  unfold accNext
  rw [mid_acc, mid_racc]

/-- After a last step the output's buffer holds `outLast` of `accNext` of what the point before left. -/
theorem out_last (c : Dev nD) (t : Fin cfg0.N) (h0 : ¬t.val % 4 = 0) (h1 : t.val % 4 = 3) :
    (outsAt0 m c t.val t.isLt).1
      = outLast m c t (accNext m c t (outsAt0 m c (t.val - 1) (Nat.lt_of_le_of_lt (Nat.sub_le _ _) t.isLt)).2) := by
  rw [outsAt0_C m c t h0 h1]
  dsimp only
  unfold outLast accNext
  rw [last_out]

/-- What the last point of a group writes into the output's buffer: the last step's block over three later steps
    over a first step, each at its own point's input blocks. -/
theorem group_out (c : Dev nD) (n : ℕ) (h0 : n % 4 = 0) (h3 : n + 3 < cfg0.N) :
    (outsAt0 m c (n + 3) h3).1
      = outLast m c ⟨n + 3, h3⟩ (accNext m c ⟨n + 3, h3⟩ (accNext m c ⟨n + 2, by omega⟩
          (accNext m c ⟨n + 1, by omega⟩ (accFirst m c ⟨n, by omega⟩)))) :=
  (out_last m c ⟨n + 3, h3⟩ (by dsimp only; omega) (by dsimp only; omega)).trans
    (congrArg (fun s => outLast m c ⟨n + 3, h3⟩ (accNext m c ⟨n + 3, h3⟩ s))
      ((carried_mid m c ⟨n + 2, by omega⟩ (by dsimp only; omega) (by dsimp only; omega)).trans
        (congrArg (accNext m c ⟨n + 2, by omega⟩)
          ((carried_mid m c ⟨n + 1, by omega⟩ (by dsimp only; omega) (by dsimp only; omega)).trans
            (congrArg (accNext m c ⟨n + 1, by omega⟩) (carried_first m c ⟨n, by omega⟩ (by dsimp only; omega)))))))

end Cert.KernelIdeal.Pieces

end
-- ==== Proof.Blocks.lean ====
/-
  Where the kernel's input blocks sit in the argument arrays. The grid point `t` (of 128) works on row block
  `t / 16` (of 8) and column block `t / 4 % 4` (of 4) of the [8192, 4096] result, at step `t % 4` over the shared axis;
  its blocks of the five operands are cut accordingly. Two operands reach the region reshaped by the host: the
  [4, 2048, 4096] input as [8192, 4096] (row s·2048 + u is token (s, u)) and the [4096] bias as one row [1, 4096].
-/
import proofs.«165287_j72980084293845_1_alg».proof.Proof.Pieces
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces

variable {F : FTy → Type} [FloatOps F]
variable (m : (ℓ : Loc nD τ sig) → Buf (Elt F) ℓ)

/-- The printed index maps, decided once over the 128 grid points: point `t` is row block `t / 16`, column block
    `t / 4 % 4` and step `t % 4` over the shared axis. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val % 4 ∧ win0_2.index t (1 : Fin 2) = 0
    ∧ win0_3.index t (0 : Fin 2) = 0 ∧ win0_3.index t (1 : Fin 2) = t.val / 4 % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

/-! ## The two arrays the host reshapes before the region -/

/-- The left operand as the region finds it: the [4, 2048, 4096] argument read as [8192, 4096]. -/
theorem V_x2 (c : Dev nD) : (V m c main_v0 : S8192x4096.Idx → Elt F .f32)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The bias as the region finds it: the [4096] argument read as one row [1, 4096]. -/
theorem V_b2 (c : Dev nD) : (V m c main_v1 : S1x4096.Idx → Elt F .f32)
    = shapeCast S1x4096 (m ((c : Thread nD τ).loc main_arg2)) shapeCasts_S4096_S1x4096 := by
  show StableHlo.after hostOps0 (fun b => m (c, b)) (Proc.devRef .tc main_v1) = _
  after_results
  rfl

/-- Row `s · 2048 + u` of the reshaped left operand is row (s, u) of the argument. -/
theorem x2_at (c : Dev nD) (r : Fin 8192) (k : Fin 4096) (s : Fin 4) (u : Fin 2048) (hr : r.val = s.val * 2048 + u.val) :
    (V m c main_v0 : S8192x4096.Idx → Elt F .f32) (ix2 r k) = m ((c : Thread nD τ).loc main_arg0) (ix3 s u k) := by
  rw [V_x2]
  exact shapeCast_apply _ _ _ _ (by
    show ((⟨3, ![4, 2048, 4096]⟩ : Shape).rowMajor (ix3 s u k)).val = ((⟨2, ![8192, 4096]⟩ : Shape).rowMajor (ix2 r k)).val
    rw [Shape.rowMajor_val_three, Shape.rowMajor_val_two]
    show (s.val * 2048 + u.val) * 4096 + k.val = r.val * 4096 + k.val
    rw [hr])

/-- Entry (0, o) of the reshaped bias is entry o of the argument. -/
theorem b2_at (c : Dev nD) (z : Fin 1) (o : Fin 4096) :
    (V m c main_v1 : S1x4096.Idx → Elt F .f32) (ix2 z o) = m ((c : Thread nD τ).loc main_arg2) (ix1 o) := by
  rw [V_b2]
  exact shapeCast_apply _ _ _ _ (by
    have hz : z.val = 0 := by omega
    show ((⟨1, ![4096]⟩ : Shape).rowMajor (ix1 o)).val = ((⟨2, ![1, 4096]⟩ : Shape).rowMajor (ix2 z o)).val
    rw [Shape.rowMajor_val_one, Shape.rowMajor_val_two]
    show o.val = z.val * 4096 + o.val
    rw [hz, Nat.zero_mul, Nat.zero_add])

/-! ## The input blocks read at an entry

  A block's coordinate inside its array is the block's index times the block's extent plus the coordinate inside
  the block, on each axis. -/

/-- The left operand's block at point `t`, entry (p, kk): row `t / 16 · 1024 + p`, column `t % 4 · 1024 + kk` of the
    reshaped array, that is row (s, u) of the argument when `s · 2048 + u` is that row. -/
theorem xblk_at (c : Dev nD) (t : Fin cfg0.N) (p kk : Fin 1024) (s : Fin 4) (u : Fin 2048) (k : Fin 4096)
    (hr : s.val * 2048 + u.val = t.val / 16 * 1024 + p.val) (hk : k.val = t.val % 4 * 1024 + kk.val) :
    xblk m c t (ix2 p kk) = m ((c : Thread nD τ).loc main_arg0) (ix3 s u k) := by
  obtain ⟨e0, e1, -⟩ := idx_facts t
  have hp := p.isLt
  rw [← x2_at m c ⟨t.val / 16 * 1024 + p.val, by have := t.isLt; have : cfg0.N = 128 := N_0; omega⟩ k s u hr.symm]
  show iblk m c 0 t (ix2 p kk) = _
  unfold iblk
  rw [View.read_apply]
  show V m c main_v0 _ = V m c main_v0 _
  congr 1
  funext a
  apply Fin.ext
  match a with
  | ⟨0, _⟩ => show win0_0.index t (0 : Fin 2) * 1024 + 1 * p.val = t.val / 16 * 1024 + p.val; rw [e0]; omega
  | ⟨1, _⟩ => show win0_0.index t (1 : Fin 2) * 1024 + 1 * kk.val = k.val; rw [e1, hk]; omega

/-- The weight's block at point `t`, entry (q, kk): row `t / 4 % 4 · 1024 + q`, column `t % 4 · 1024 + kk`. -/
theorem wblk_at (c : Dev nD) (t : Fin cfg0.N) (q kk : Fin 1024) (o k : Fin 4096)
    (ho : o.val = t.val / 4 % 4 * 1024 + q.val) (hk : k.val = t.val % 4 * 1024 + kk.val) :
    wblk m c t (ix2 q kk) = m ((c : Thread nD τ).loc main_arg1) (ix2 o k) := by
  obtain ⟨-, -, e0, e1, -⟩ := idx_facts t
  rw [← V_main_arg1 m c]
  show iblk m c 1 t (ix2 q kk) = _
  unfold iblk
  rw [View.read_apply]
  show V m c main_arg1 _ = V m c main_arg1 _
  congr 1
  funext a
  apply Fin.ext
  match a with
  | ⟨0, _⟩ => show win0_1.index t (0 : Fin 2) * 1024 + 1 * q.val = o.val; rw [e0, ho]; omega
  | ⟨1, _⟩ => show win0_1.index t (1 : Fin 2) * 1024 + 1 * kk.val = k.val; rw [e1, hk]; omega

/-- The low-rank left factor's block at point `t`, entry (kk, r): row `t % 4 · 1024 + kk`, column r. -/
theorem ablk_at (c : Dev nD) (t : Fin cfg0.N) (kk : Fin 1024) (r : Fin 16) (k : Fin 4096)
    (hk : k.val = t.val % 4 * 1024 + kk.val) :
    ablk m c t (ix2 kk r) = m ((c : Thread nD τ).loc main_arg3) (ix2 k r) := by
  obtain ⟨-, -, -, -, e0, e1, -⟩ := idx_facts t
  rw [← V_main_arg3 m c]
  show iblk m c 2 t (ix2 kk r) = _
  unfold iblk
  rw [View.read_apply]
  show V m c main_arg3 _ = V m c main_arg3 _
  congr 1
  funext a
  apply Fin.ext
  match a with
  | ⟨0, _⟩ => show win0_2.index t (0 : Fin 2) * 1024 + 1 * kk.val = k.val; rw [e0, hk]; omega
  | ⟨1, _⟩ => show win0_2.index t (1 : Fin 2) * 16 + 1 * r.val = r.val; rw [e1]; omega

/-- The bias row's block at point `t`, entry (0, q): entry `t / 4 % 4 · 1024 + q` of the argument. -/
theorem bblk_at (c : Dev nD) (t : Fin cfg0.N) (z : Fin 1) (q : Fin 1024) (o : Fin 4096)
    (ho : o.val = t.val / 4 % 4 * 1024 + q.val) :
    bblk m c t (ix2 z q) = m ((c : Thread nD τ).loc main_arg2) (ix1 o) := by
  obtain ⟨-, -, -, -, -, -, e0, e1, -⟩ := idx_facts t
  rw [← b2_at m c z o]
  show iblk m c 3 t (ix2 z q) = _
  unfold iblk
  rw [View.read_apply]
  show V m c main_v1 _ = V m c main_v1 _
  congr 1
  funext a
  apply Fin.ext
  match a with
  | ⟨0, _⟩ => show win0_3.index t (0 : Fin 2) * 1 + 1 * z.val = z.val; rw [e0]; omega
  | ⟨1, _⟩ => show win0_3.index t (1 : Fin 2) * 1024 + 1 * q.val = o.val; rw [e1, ho]; omega

/-- The low-rank right factor's block at point `t`, entry (r, q): row r, column `t / 4 % 4 · 1024 + q`. -/
theorem lblk_at (c : Dev nD) (t : Fin cfg0.N) (r : Fin 16) (q : Fin 1024) (o : Fin 4096)
    (ho : o.val = t.val / 4 % 4 * 1024 + q.val) :
    lblk m c t (ix2 r q) = m ((c : Thread nD τ).loc main_arg4) (ix2 r o) := by
  obtain ⟨-, -, -, -, -, -, -, -, e0, e1, -⟩ := idx_facts t
  rw [← V_main_arg4 m c]
  show iblk m c 4 t (ix2 r q) = _
  unfold iblk
  rw [View.read_apply]
  show V m c main_arg4 _ = V m c main_arg4 _
  congr 1
  funext a
  apply Fin.ext
  match a with
  | ⟨0, _⟩ => show win0_4.index t (0 : Fin 2) * 16 + 1 * r.val = r.val; rw [e0]; omega
  | ⟨1, _⟩ => show win0_4.index t (1 : Fin 2) * 1024 + 1 * q.val = o.val; rw [e1, ho]; omega

end Cert.KernelIdeal.Blocks

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.StepIdx.lean ====
/-
  The body's arithmetic read at an entry, over the extended reals, where a change of float format is the identity:
  the zero blocks are zero; an accumulation step adds to an entry of the accumulator the sum over the block's 1024
  shared columns of the products (for x·Wᵀ the weight block is read transposed: row q, column kk); the last step's
  output entry is the accumulator's plus the sixteen-term low-rank product plus the bias row's entry.
-/
import proofs.«165287_j72980084293845_1_alg».proof.Proof.Gen.KernelIdeal.Skeleton
import proofs.«165287_j72980084293845_1_alg».proof.Proof.LibDot
import proofs.«165287_j72980084293845_1_alg».proof.Proof.LibDotT
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.KernelIdeal.StepIdx

open Cert.KernelIdeal Cert.KernelIdeal.Gen

theorem pay1_at (p q : Fin 1024) : k0_pay1 (F := Ideal) (ix2 p q) = 0 := by
  unfold k0_pay1
  rw [shapeCast_self]
  exact Ideal.ofBits_zero_f32

theorem pay2_at (p : Fin 1024) (r : Fin 16) : k0_pay2 (F := Ideal) (ix2 p r) = 0 := by
  unfold k0_pay2
  rw [shapeCast_self]
  exact Ideal.ofBits_zero_f32

theorem pay4_at (x w s : Vec Ideal S1024x1024 .f32) (p q : Fin 1024) :
    k0_pay4 (F := Ideal) x w s (ix2 p q) = s (ix2 p q) + ∑ kk : Fin 1024, x (ix2 p kk) * w (ix2 q kk) := by
  unfold k0_pay4 k0_pay3
  simp only [shapeCast_self]
  rw [addf_apply]
  congr 1
  exact Cert.LibDotT.matmul_zero_at_T dot_S1024x1024_S1024x1024_S1024x1024_1_1_0_0_n_n rfl rfl rfl rfl rfl rfl none _ _ p q

theorem pay5_at (x : Vec Ideal S1024x1024 .f32) (a s : Vec Ideal S1024x16 .f32) (p : Fin 1024) (r : Fin 16) :
    k0_pay5 (F := Ideal) x a s (ix2 p r) = s (ix2 p r) + ∑ kk : Fin 1024, x (ix2 p kk) * a (ix2 kk r) := by
  unfold k0_pay5 k0_pay3
  simp only [shapeCast_self]
  rw [addf_apply]
  congr 1
  exact Cert.LibDot.matmul_zero_at dot_S1024x1024_S1024x16_S1024x16_1_0_0_1_n_n rfl rfl rfl rfl rfl rfl none _ _ p r

theorem pay6_at (s1 : Vec Ideal S1024x16 .f32) (l : Vec Ideal S16x1024 .f32) (s0 : Vec Ideal S1024x1024 .f32)
    (bb : Vec Ideal S1x1024 .f32) (p q : Fin 1024) :
    k0_pay6 (F := Ideal) s1 l s0 bb (ix2 p q)
      = (s0 (ix2 p q) + ∑ r : Fin 16, s1 (ix2 p r) * l (ix2 r q)) + bb (ix2 (0 : Fin 1) q) := by
  unfold k0_pay6
  simp only [shapeCast_self]
  rw [addf_apply, addf_apply]
  congr 1
  · congr 1
    exact Cert.LibDot.matmul_zero_at dot_S1024x16_S16x1024_S1024x1024_1_0_0_1_n_n rfl rfl rfl rfl rfl rfl none _ _ p q
  · exact broadcastTo_apply bb broadcasts_S1x1024_S1024x1024 (ix2 p q) (ix2 (0 : Fin 1) q) (fun a => by
      match a with
      | ⟨0, _⟩ => rfl
      | ⟨1, _⟩ => rfl)

/-- One group of four steps, read at entry (p, q) of the output block: the four block products of the left operand
    with the transposed weight block added in order onto zero, plus the correction — the four low-rank block products
    added in order onto zero, times the right factor, summed over the sixteen ranks — plus the bias row's entry. -/
theorem group_at (x0 x1 x2 x3 w0 w1 w2 w3 : Vec Ideal S1024x1024 .f32) (a0 a1 a2 a3 : Vec Ideal S1024x16 .f32)
    (l : Vec Ideal S16x1024 .f32) (bb : Vec Ideal S1x1024 .f32) (p q : Fin 1024) :
    k0_pay6 (F := Ideal) (k0_pay5 x3 a3 (k0_pay5 x2 a2 (k0_pay5 x1 a1 (k0_pay5 x0 a0 (k0_pay2 (F := Ideal)))))) l
        (k0_pay4 x3 w3 (k0_pay4 x2 w2 (k0_pay4 x1 w1 (k0_pay4 x0 w0 (k0_pay1 (F := Ideal)))))) bb (ix2 p q)
      = (((((0 + ∑ kk : Fin 1024, x0 (ix2 p kk) * w0 (ix2 q kk)) + ∑ kk : Fin 1024, x1 (ix2 p kk) * w1 (ix2 q kk))
              + ∑ kk : Fin 1024, x2 (ix2 p kk) * w2 (ix2 q kk)) + ∑ kk : Fin 1024, x3 (ix2 p kk) * w3 (ix2 q kk))
          + ∑ r : Fin 16, ((((0 + ∑ kk : Fin 1024, x0 (ix2 p kk) * a0 (ix2 kk r))
              + ∑ kk : Fin 1024, x1 (ix2 p kk) * a1 (ix2 kk r)) + ∑ kk : Fin 1024, x2 (ix2 p kk) * a2 (ix2 kk r))
              + ∑ kk : Fin 1024, x3 (ix2 p kk) * a3 (ix2 kk r)) * l (ix2 r q))
        + bb (ix2 (0 : Fin 1) q) := by
  rw [pay6_at]
  simp only [pay4_at, pay5_at, pay1_at, pay2_at]

end Cert.KernelIdeal.StepIdx

end
-- ==== Proof.LoraSpec.lean ====
/-
  A linear layer with a low-rank correction, as one function of its five arrays over the extended reals:
  at token (s, t) and output feature o it is  (Σₖ x(s,t,k)·W(o,k) + b(o)) + Σᵣ (Σₖ x(s,t,k)·A(k,r))·B(r,o).
  Two laws join a tiled evaluation of it to this plain one. A sum over 4096 columns is the sum of its four
  blocks of 1024 columns, added in block order onto zero: both are sums of the same terms, regrouped, and addition
  on the extended reals is commutative and associative, so no finiteness is needed. And the bias may be added last
  or before the correction: (a + l) + b = (a + b) + l.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.LoraSpec

open Idealize.ShloMosaic Idealize.ShloMosaic.ValueIdx

/-- Column `kk` of block `kb`, among 4096 columns cut into four blocks of 1024. -/
abbrev col (kb : Fin 4) (kk : Fin 1024) : Fin 4096 :=
  ⟨kb.val * 1024 + kk.val, by have := kb.isLt; have := kk.isLt; omega⟩

/-- A column is a block and a place inside the block. -/
def colEquiv : Fin 4 × Fin 1024 ≃ Fin 4096 where
  toFun p := col p.1 p.2
  invFun k := (⟨k.val / 1024, by have := k.isLt; omega⟩, ⟨k.val % 1024, Nat.mod_lt _ (by norm_num)⟩)
  left_inv p := by
    obtain ⟨a, b⟩ := p
    have ha := a.isLt
    have hb := b.isLt
    refine Prod.ext (Fin.ext ?_) (Fin.ext ?_)
    · show (a.val * 1024 + b.val) / 1024 = a.val
      omega
    · show (a.val * 1024 + b.val) % 1024 = b.val
      omega
  right_inv k := Fin.ext (by
    show k.val / 1024 * 1024 + k.val % 1024 = k.val
    omega)

/-- The four blocks of a sum over 4096 columns, added in block order onto zero. -/
def blk4 {M : Type*} [AddCommMonoid M] (f : Fin 4096 → M) : M :=
  (((0 + ∑ kk : Fin 1024, f (col 0 kk)) + ∑ kk : Fin 1024, f (col 1 kk)) + ∑ kk : Fin 1024, f (col 2 kk))
    + ∑ kk : Fin 1024, f (col 3 kk)

/-- That is the sum over all 4096 columns. -/
theorem blk4_eq_sum {M : Type*} [AddCommMonoid M] (f : Fin 4096 → M) : blk4 f = ∑ k : Fin 4096, f k := by
  unfold blk4
  rw [← Equiv.sum_comp colEquiv f, Fintype.sum_prod_type, Fin.sum_univ_four, zero_add]
  rfl

/-- `x·Wᵀ + b + (x·A)·B` at token (s, t) and output feature o, over the extended reals. -/
def lin (x : FVec Ideal ⟨3, ![4, 2048, 4096]⟩ .f32) (W : FVec Ideal ⟨2, ![4096, 4096]⟩ .f32)
    (b : FVec Ideal ⟨1, ![4096]⟩ .f32) (A : FVec Ideal ⟨2, ![4096, 16]⟩ .f32) (B : FVec Ideal ⟨2, ![16, 4096]⟩ .f32)
    (s : Fin 4) (t : Fin 2048) (o : Fin 4096) : EReal :=
  ((∑ k : Fin 4096, x (ix3 s t k) * W (ix2 o k)) + b (ix1 o))
    + ∑ r : Fin 16, (∑ k : Fin 4096, x (ix3 s t k) * A (ix2 k r)) * B (ix2 r o)

/-- The tiled evaluation — both products accumulated block by block over the shared axis, the correction
    formed from the accumulated low-rank product, the bias added last — is `lin`. -/
theorem tiled_eq_lin (x : FVec Ideal ⟨3, ![4, 2048, 4096]⟩ .f32) (W : FVec Ideal ⟨2, ![4096, 4096]⟩ .f32)
    (b : FVec Ideal ⟨1, ![4096]⟩ .f32) (A : FVec Ideal ⟨2, ![4096, 16]⟩ .f32) (B : FVec Ideal ⟨2, ![16, 4096]⟩ .f32)
    (s : Fin 4) (t : Fin 2048) (o : Fin 4096) :
    (blk4 (fun k => x (ix3 s t k) * W (ix2 o k))
        + ∑ r : Fin 16, blk4 (fun k => x (ix3 s t k) * A (ix2 k r)) * B (ix2 r o)) + b (ix1 o)
      = lin x W b A B s t o := by
  unfold lin
  rw [blk4_eq_sum]
  simp only [blk4_eq_sum]
  exact add_right_comm _ _ _

end Cert.LoraSpec

end
-- ==== Proof.KernelValue.lean ====
/-
  What the idealized kernel computes, over the extended reals. The region's [8192, 4096] result array ends holding,
  at row r and column o, the function `lin` at token (r / 2048, r % 2048) and feature o: only the last step of each
  group of four grid points writes its block back; that block is four accumulation steps over a first step that
  starts from zero, each step's block products being sums over its 1024 shared columns of entries of the argument
  arrays; the four block sums are the one sum over all 4096 columns, and adding the bias after the low-rank correction
  or before it is the same. The 32 flushing points' blocks tile the array. The host's last line reads that array as
  [4, 2048, 4096], so the program's result is `lin` index by index.
-/
import proofs.«165287_j72980084293845_1_alg».proof.Proof.Blocks
import proofs.«165287_j72980084293845_1_alg».proof.Proof.StepIdx
import proofs.«165287_j72980084293845_1_alg».proof.Proof.LoraSpec
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pieces Cert.KernelIdeal.Blocks Cert.KernelIdeal.StepIdx Cert.LoraSpec

variable (m : (ℓ : Loc nD τ sig) → Buf (Elt Ideal) ℓ) (ρ : Dev nD → PrngReg)

/-- The five argument arrays on core `c`. -/
abbrev ax (c : Dev nD) : FVec Ideal ⟨3, ![4, 2048, 4096]⟩ .f32 := m ((c : Thread nD τ).loc main_arg0)
abbrev aW (c : Dev nD) : FVec Ideal ⟨2, ![4096, 4096]⟩ .f32 := m ((c : Thread nD τ).loc main_arg1)
abbrev ab (c : Dev nD) : FVec Ideal ⟨1, ![4096]⟩ .f32 := m ((c : Thread nD τ).loc main_arg2)
abbrev aA (c : Dev nD) : FVec Ideal ⟨2, ![4096, 16]⟩ .f32 := m ((c : Thread nD τ).loc main_arg3)
abbrev aB (c : Dev nD) : FVec Ideal ⟨2, ![16, 4096]⟩ .f32 := m ((c : Thread nD τ).loc main_arg4)

/-- The region's [8192, 4096] result: row `r` is token (r / 2048, r % 2048). -/
def out2 (c : Dev nD) : S8192x4096.Idx → EReal := fun j =>
  lin (ax m c) (aW m c) (ab m c) (aA m c) (aB m c)
    ⟨(j 0).val / 2048, by have := (j 0).isLt; show _ < 4; have : (j 0).val < 8192 := (j 0).isLt; omega⟩
    ⟨(j 0).val % 2048, Nat.mod_lt _ (by norm_num)⟩ (j 1)

theorem out2_at (c : Dev nD) (j : S8192x4096.Idx) (s : Fin 4) (u : Fin 2048) (o : Fin 4096)
    (hs : (j 0).val = s.val * 2048 + u.val) (ho : (j 1).val = o.val) :
    out2 m c j = lin (ax m c) (aW m c) (ab m c) (aA m c) (aB m c) s u o := by
  unfold out2
  have hu := u.isLt
  congr 1
  · exact Fin.ext (by show (j 0).val / 2048 = s.val; omega)
  · exact Fin.ext (by show (j 0).val % 2048 = u.val; omega)
  · exact Fin.ext ho

/-- One step's block product for x·Wᵀ, as a sum over the step's 1024 columns of the argument arrays. -/
theorem xw_sum (c : Dev nD) (t : Fin cfg0.N) (d : Fin 4) (hd : t.val % 4 = d.val) (p q : Fin 1024)
    (s : Fin 4) (u : Fin 2048) (o : Fin 4096) (hr : s.val * 2048 + u.val = t.val / 16 * 1024 + p.val)
    (ho : o.val = t.val / 4 % 4 * 1024 + q.val) :
    (∑ kk : Fin 1024, xblk m c t (ix2 p kk) * wblk m c t (ix2 q kk))
      = ∑ kk : Fin 1024, ax m c (ix3 s u (col d kk)) * aW m c (ix2 o (col d kk)) :=
  Finset.sum_congr rfl fun kk _ => by
    rw [xblk_at m c t p kk s u (col d kk) hr (by show d.val * 1024 + kk.val = _; rw [hd]),
      wblk_at m c t q kk o (col d kk) ho (by show d.val * 1024 + kk.val = _; rw [hd])]

/-- One step's block product for x·A. -/
theorem xa_sum (c : Dev nD) (t : Fin cfg0.N) (d : Fin 4) (hd : t.val % 4 = d.val) (p : Fin 1024) (r : Fin 16)
    (s : Fin 4) (u : Fin 2048) (hr : s.val * 2048 + u.val = t.val / 16 * 1024 + p.val) :
    (∑ kk : Fin 1024, xblk m c t (ix2 p kk) * ablk m c t (ix2 kk r))
      = ∑ kk : Fin 1024, ax m c (ix3 s u (col d kk)) * aA m c (ix2 (col d kk) r) :=
  Finset.sum_congr rfl fun kk _ => by
    rw [xblk_at m c t p kk s u (col d kk) hr (by show d.val * 1024 + kk.val = _; rw [hd]),
      ablk_at m c t kk r (col d kk) (by show d.val * 1024 + kk.val = _; rw [hd])]

/-- WHAT A FLUSHING POINT WRITES BACK is its block of `out2`. -/
theorem flushed_eq (c : Dev nD) (t : Fin cfg0.N) (hf : (cfg0.win 5).flush t = true) :
    (dats m 0 c).flushed 5 t = ((cfg0.win 5).blk t).view.read (Elt Ideal) (out2 m c) := by
  have h3 : t.val % 4 = 3 := (flush0_5 t).mp hf
  have hN : cfg0.N = 128 := N_0
  show (cfg0.win 5).cut (grid0.coords t) ((dats m 0 c).after 5 t) = _
  rw [after0_5]
  obtain ⟨tv, tlt⟩ := t
  dsimp only at h3 ⊢
  obtain ⟨n, rfl, h0⟩ : ∃ n, tv = n + 3 ∧ n % 4 = 0 := ⟨tv - 3, by omega, by omega⟩
  rw [group_out m c n h0 tlt]
  refine funext fun (j : S1024x1024.Idx) => ?_
  obtain ⟨p, q, rfl⟩ : ∃ (p q : Fin 1024), j = ix2 p q := ⟨j 0, j 1, eq_ix2 j⟩
  show outLast m c ⟨n + 3, tlt⟩ (accNext m c ⟨n + 3, tlt⟩ (accNext m c ⟨n + 2, by omega⟩
      (accNext m c ⟨n + 1, by omega⟩ (accFirst m c ⟨n, by omega⟩)))) (ix2 p q)
    = out2 m c (((cfg0.win 5).blk ⟨n + 3, tlt⟩).view.emb (ix2 p q))
  have hp := p.isLt
  have hq := q.isLt
  obtain ⟨-, -, -, -, -, -, -, -, -, -, e0, e1⟩ := idx_facts ⟨n + 3, tlt⟩
  dsimp only at e0 e1
  -- the token (s, u) and the output feature o this entry is
  obtain ⟨s, u, hsu⟩ : ∃ (s : Fin 4) (u : Fin 2048), s.val * 2048 + u.val = (n + 3) / 16 * 1024 + p.val :=
    ⟨⟨((n + 3) / 16 * 1024 + p.val) / 2048, by omega⟩, ⟨((n + 3) / 16 * 1024 + p.val) % 2048, Nat.mod_lt _ (by norm_num)⟩, by
      show ((n + 3) / 16 * 1024 + p.val) / 2048 * 2048 + ((n + 3) / 16 * 1024 + p.val) % 2048 = _
      omega⟩
  obtain ⟨o, ho⟩ : ∃ o : Fin 4096, o.val = (n + 3) / 4 % 4 * 1024 + q.val := ⟨⟨(n + 3) / 4 % 4 * 1024 + q.val, by omega⟩, rfl⟩
  rw [out2_at m c _ s u o
    (by show win0_5.index ⟨n + 3, tlt⟩ (0 : Fin 2) * 1024 + 1 * p.val = s.val * 2048 + u.val; rw [e0, hsu]; omega)
    (by show win0_5.index ⟨n + 3, tlt⟩ (1 : Fin 2) * 1024 + 1 * q.val = o.val; rw [e1, ho]; omega)]
  unfold outLast accNext accFirst
  dsimp only
  refine (group_at (xblk m c ⟨n, by omega⟩) (xblk m c ⟨n + 1, by omega⟩) (xblk m c ⟨n + 2, by omega⟩) (xblk m c ⟨n + 3, tlt⟩)
    (wblk m c ⟨n, by omega⟩) (wblk m c ⟨n + 1, by omega⟩) (wblk m c ⟨n + 2, by omega⟩) (wblk m c ⟨n + 3, tlt⟩)
    (ablk m c ⟨n, by omega⟩) (ablk m c ⟨n + 1, by omega⟩) (ablk m c ⟨n + 2, by omega⟩) (ablk m c ⟨n + 3, tlt⟩)
    (lblk m c ⟨n + 3, tlt⟩) (bblk m c ⟨n + 3, tlt⟩) p q).trans ?_
  have XW0 := xw_sum m c ⟨n, by omega⟩ (0 : Fin 4) (by show (n + 0) % 4 = 0; omega) p q s u o (by show s.val * 2048 + u.val = (n + 0) / 16 * 1024 + p.val; omega) (by show o.val = (n + 0) / 4 % 4 * 1024 + q.val; omega)
  have XW1 := xw_sum m c ⟨n + 1, by omega⟩ (1 : Fin 4) (by show (n + 1) % 4 = 1; omega) p q s u o (by show s.val * 2048 + u.val = (n + 1) / 16 * 1024 + p.val; omega) (by show o.val = (n + 1) / 4 % 4 * 1024 + q.val; omega)
  have XW2 := xw_sum m c ⟨n + 2, by omega⟩ (2 : Fin 4) (by show (n + 2) % 4 = 2; omega) p q s u o (by show s.val * 2048 + u.val = (n + 2) / 16 * 1024 + p.val; omega) (by show o.val = (n + 2) / 4 % 4 * 1024 + q.val; omega)
  have XW3 := xw_sum m c ⟨n + 3, tlt⟩ (3 : Fin 4) (by show (n + 3) % 4 = 3; omega) p q s u o (by show s.val * 2048 + u.val = (n + 3) / 16 * 1024 + p.val; omega) (by show o.val = (n + 3) / 4 % 4 * 1024 + q.val; omega)
  have XA0 : ∀ r : Fin 16, _ = _ := fun r => xa_sum m c ⟨n, by omega⟩ (0 : Fin 4) (by show (n + 0) % 4 = 0; omega) p r s u (by show s.val * 2048 + u.val = (n + 0) / 16 * 1024 + p.val; omega)
  have XA1 : ∀ r : Fin 16, _ = _ := fun r => xa_sum m c ⟨n + 1, by omega⟩ (1 : Fin 4) (by show (n + 1) % 4 = 1; omega) p r s u (by show s.val * 2048 + u.val = (n + 1) / 16 * 1024 + p.val; omega)
  have XA2 : ∀ r : Fin 16, _ = _ := fun r => xa_sum m c ⟨n + 2, by omega⟩ (2 : Fin 4) (by show (n + 2) % 4 = 2; omega) p r s u (by show s.val * 2048 + u.val = (n + 2) / 16 * 1024 + p.val; omega)
  have XA3 : ∀ r : Fin 16, _ = _ := fun r => xa_sum m c ⟨n + 3, tlt⟩ (3 : Fin 4) (by show (n + 3) % 4 = 3; omega) p r s u (by show s.val * 2048 + u.val = (n + 3) / 16 * 1024 + p.val; omega)
  have LB : ∀ r : Fin 16, lblk m c ⟨n + 3, tlt⟩ (ix2 r q) = aB m c (ix2 r o) := fun r =>
    lblk_at m c ⟨n + 3, tlt⟩ r q o (by show o.val = (n + 3) / 4 % 4 * 1024 + q.val; omega)
  have BB : bblk m c ⟨n + 3, tlt⟩ (ix2 (0 : Fin 1) q) = ab m c (ix1 o) :=
    bblk_at m c ⟨n + 3, tlt⟩ 0 q o (by show o.val = (n + 3) / 4 % 4 * 1024 + q.val; omega)
  rw [XW0, XW1, XW2, XW3, BB]
  simp only [XA0, XA1, XA2, XA3, LB]
  exact tiled_eq_lin (ax m c) (aW m c) (ab m c) (aA m c) (aB m c) s u o

/-- An index of the result array is in point `t`'s block iff each coordinate is in the block's range on its axis. -/
theorem mem_blk (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v2).slice (win0_5.rect t)).set ↔ _
  rw [View.set_slice_whole, Rect.mem_set_unit]
  exact Iff.rfl

/-- Every index of the result array is in the block of the last step of its group: the 32 flushing points tile it. -/
theorem cover (i : S8192x4096.Idx) :
    ∃ t : Fin cfg0.N, (cfg0.win 5).flush t = true ∧ i ∈ ((cfg0.win 5).blk t).view.set := by
  have hN : cfg0.N = 128 := N_0
  have hi0 : (i 0).val < 8192 := (i 0).isLt
  have hi1 : (i 1).val < 4096 := (i 1).isLt
  refine ⟨⟨(i 0).val / 1024 * 16 + (i 1).val / 1024 * 4 + 3, by omega⟩, (flush0_5 _).mpr (by dsimp only; omega), ?_⟩
  rw [mem_blk]
  obtain ⟨-, -, -, -, -, -, -, -, -, -, e0, e1⟩ :=
    idx_facts ⟨(i 0).val / 1024 * 16 + (i 1).val / 1024 * 4 + 3, by omega⟩
  dsimp only at e0 e1
  intro a
  match a with
  | ⟨0, _⟩ =>
    show win0_5.index _ (0 : Fin 2) * 1024 ≤ (i 0).val ∧ (i 0).val < win0_5.index _ (0 : Fin 2) * 1024 + 1024
    rw [e0]
    omega
  | ⟨1, _⟩ =>
    show win0_5.index _ (1 : Fin 2) * 1024 ≤ (i 1).val ∧ (i 1).val < win0_5.index _ (1 : Fin 2) * 1024 + 1024
    rw [e1]
    omega

/-- The region's result array after the run. -/
theorem final (c : Dev nD) : (dats m 0 c).arrAt 5 cfg0.N = out2 m c :=
  (dats m 0 c).arrAt_eq_of_cover 5 (out2 m c) (flushed_eq m c) cover

/-- The program's result: the function `lin` of the five arguments, index by index. -/
def res (c : Dev nD) : Buf (Elt Ideal) ((c : Thread nD τ).loc main_v3) := fun i =>
  lin (ax m c) (aW m c) (ab m c) (aA m c) (aB m c) (i 0) (i 1) (i 2)

/-- The host's last line reads the [8192, 4096] result as [4, 2048, 4096]: token (s, u) is row s·2048 + u. -/
theorem tail_eq (c : Dev nD) :
    Pipeline.afterTail₀ cfgs (dats m) 0 (V0 m) [hostOps1] c main_v3 = res m c := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = out2 m c :=
    (Pipeline.withArrays_arr spec0 launch0.win.arr_inj c _ _ 5).trans (final m c)
  funext i
  show shapeCast S4x2048x4096 (Pipeline.withArrays (cfgs 0).spec c (V0 m c) (fun w => (dats m 0 c).arrAt w (cfgs 0).N)
      (Proc.devRef .tc main_v2)) shapeCasts_S8192x4096_S4x2048x4096 i = _
  rw [hw]
  obtain ⟨s, u, o, rfl⟩ : ∃ (s : Fin 4) (u : Fin 2048) (o : Fin 4096), i = ix3 s u o := ⟨i 0, i 1, i 2, eq_ix3 i⟩
  have hu := u.isLt
  have hs := s.isLt
  refine (shapeCast_apply (out2 m c) shapeCasts_S8192x4096_S4x2048x4096 (ix3 s u o)
    (ix2 (⟨s.val * 2048 + u.val, by omega⟩ : Fin 8192) o) (by
      show ((⟨2, ![8192, 4096]⟩ : Shape).rowMajor (ix2 (⟨s.val * 2048 + u.val, by omega⟩ : Fin 8192) o)).val
        = ((⟨3, ![4, 2048, 4096]⟩ : Shape).rowMajor (ix3 s u o)).val
      rw [Shape.rowMajor_val_three, Shape.rowMajor_val_two]
      rfl)).trans ?_
  exact out2_at m c _ s u o rfl rfl

/-! ## The run, read -/

/-- Every weakly fair execution of the program at the extended reals terminates with its result at `res` and its five
    arguments unchanged: the generated frame run, with the region's array opened by `final` and the last line by
    `tail_eq`. -/
theorem run : θ_run defs (onTc (τ := τ) (main (F := Ideal))) ⟨m, fun _ => 0, ρ⟩ fun r => ∀ c : Dev nD,
      r.2.mem ((c.tc : Thread nD τ).loc main_v3) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c)))⟩)
    (run_main m ρ)

end Cert.KernelIdeal.KValue

end
-- ==== Proof.RefValue.lean ====
/-
  The reference computes the plain form: x·Wᵀ by one contraction over all 4096 columns, the bias broadcast and added,
  x·A and then (x·A)·B by two more contractions, and the two sums added. Read at an index (s, u, o), one operation at a
  time, that is the function `lin` of the five argument arrays.
-/
import proofs.«165287_j72980084293845_1_alg».proof.Proof.Gen.ReferenceIdeal.Read
import proofs.«165287_j72980084293845_1_alg».proof.Proof.LoraSpec

noncomputable section

open scoped BigOperators
open Idealize.ShloMosaic Idealize.ShloMosaic.TcCoe Idealize.ShloMosaic.ValueIdx

namespace Cert.ReferenceIdeal.RefValue

open Cert.ReferenceIdeal Cert.ReferenceIdeal.Read Cert.LoraSpec

/-- The reference's result at index `i` is `lin` at `i`'s three coordinates. -/
theorem ref_eq_lin (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) (i : S4x2048x4096.Idx) :
    val_main_v6 (F := Ideal) x0 x1 x2 x3 x4 i = lin x0 x1 x2 x3 x4 (i 0) (i 1) (i 2) := by
  have eL0 : ∀ k, lidx_main_v0 i k = ix3 (i 0) (i 1) k := fun k => funext fun a => by
    match a with
    | ⟨0, _⟩ => rfl
    | ⟨1, _⟩ => rfl
    | ⟨2, _⟩ => rfl
  have eR0 : ∀ k, ridx_main_v0 i k = ix2 (i 2) k := fun k => funext fun a => by
    match a with
    | ⟨0, _⟩ => rfl
    | ⟨1, _⟩ => rfl
  have eB : idx_main_v1 (idx_main_v2 i) = ix1 (i 2) := funext fun a => by
    match a with
    | ⟨0, _⟩ => rfl
  have eL4 : ∀ (r : Fin 16) k, lidx_main_v4 (lidx_main_v5 i r) k = ix3 (i 0) (i 1) k := fun r k => funext fun a => by
    match a with
    | ⟨0, _⟩ => rfl
    | ⟨1, _⟩ => rfl
    | ⟨2, _⟩ => rfl
  have eR4 : ∀ (r : Fin 16) k, ridx_main_v4 (lidx_main_v5 i r) k = ix2 k r := fun r k => funext fun a => by
    match a with
    | ⟨0, _⟩ => rfl
    | ⟨1, _⟩ => rfl
  have eR5 : ∀ r : Fin 16, ridx_main_v5 i r = ix2 r (i 2) := fun r => funext fun a => by
    match a with
    | ⟨0, _⟩ => rfl
    | ⟨1, _⟩ => rfl
  rw [val_main_v6_apply, val_main_v3_apply, val_main_v0_apply, val_main_v2_apply, val_main_v1_apply, val_main_v5_apply]
  simp only [val_main_v4_apply, eL0, eR0, eB, eL4, eR4, eR5]
  rfl

end Cert.ReferenceIdeal.RefValue

end
-- ==== Proof.lean ====
/-
  The kernel fuses a linear layer with a low-rank correction: out = x·Wᵀ + b + (x·A)·B, for x of shape
  [4, 2048, 4096], W [4096, 4096], b [4096], A [4096, 16], B [16, 4096]. It tiles the [8192, 4096] result into 1024 × 1024
  blocks and the shared axis into four steps, accumulating x·Wᵀ and x·A block by block and forming
  (acc + racc·B) + b at the last step; the reference computes (x·Wᵀ + b) + (x·A)·B by whole contractions.
  Over the extended reals both are the same function of the five arrays: the four block sums of a contraction are the
  whole sum regrouped (addition is commutative and associative there, infinities included), and
  (a + l) + b = (a + b) + l. No law used needs finiteness, so the precondition is never opened.
  The frames of the two kernel programs are the generated frame runs; the reference's frame is its generated run with
  the result dropped; the ideal pass rewrote nothing, so the idealization claim is trivial.
-/
import proofs.«165287_j72980084293845_1_alg».proof.Defs
import proofs.«165287_j72980084293845_1_alg».proof.Proof.Gen.Kernel
import proofs.«165287_j72980084293845_1_alg».proof.Proof.Gen.Kernel.Skeleton
import proofs.«165287_j72980084293845_1_alg».proof.Proof.Gen.Kernel.Launch
import proofs.«165287_j72980084293845_1_alg».proof.Proof.Gen.Kernel.Points
import proofs.«165287_j72980084293845_1_alg».proof.Proof.Gen.Kernel.Frame
import proofs.«165287_j72980084293845_1_alg».proof.Proof.Gen.KernelIdeal
import proofs.«165287_j72980084293845_1_alg».proof.Proof.Gen.KernelIdeal.Skeleton
import proofs.«165287_j72980084293845_1_alg».proof.Proof.Gen.KernelIdeal.Launch
import proofs.«165287_j72980084293845_1_alg».proof.Proof.Gen.KernelIdeal.Points
import proofs.«165287_j72980084293845_1_alg».proof.Proof.Gen.KernelIdeal.Frame
import proofs.«165287_j72980084293845_1_alg».proof.Proof.Gen.ReferenceIdeal
import proofs.«165287_j72980084293845_1_alg».proof.Proof.Gen.ReferenceIdeal.Run
import proofs.«165287_j72980084293845_1_alg».proof.Proof.Gen.ReferenceIdeal.Read
import proofs.«165287_j72980084293845_1_alg».proof.Proof.Gen.Pre_finite_inputs
import proofs.«165287_j72980084293845_1_alg».proof.Proof.KernelValue
import proofs.«165287_j72980084293845_1_alg».proof.Proof.RefValue
import Idealize.ShloMosaic.Adequacy
import Idealize.ShloMosaic.Init

noncomputable section

namespace Cert.Proof

open Idealize.ShloMosaic Idealize.SL.Sem

/-- From memories that agree on the five arguments, the idealized kernel ends at `lin` of them index by index, and so
    does the reference: its run's term, read one operation at a time, is `lin` of its own arguments, which are the
    kernel's. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KValue.res m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v6_eq, h0, h1, h2, h3, h4]
  funext i
  exact Cert.ReferenceIdeal.RefValue.ref_eq_lin _ _ _ _ _ i

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
